-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x1600000 : Shape := ⟨2, ![2, 1600000]⟩
abbrev S5000 : Shape := ⟨1, ![5000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : IVec S2x1600000 32) (main_arg7 : IVec S5000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x1600000 : Shape := ⟨2, ![2, 1600000]⟩
abbrev S5000 : Shape := ⟨1, ![5000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000x1 : Shape := ⟨2, ![5000, 1]⟩

abbrev nBuf : Space → Nat
  | .hbm => 106
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x1600000, .i32⟩
  | .hbm, ⟨7, _⟩ => ⟨S5000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S5000, .i32⟩
  | .hbm, ⟨90, _⟩ => ⟨S5000, .i1⟩
  | .hbm, ⟨91, _⟩ => ⟨S_, .i32⟩
  | .hbm, ⟨92, _⟩ => ⟨S5000, .i32⟩
  | .hbm, ⟨93, _⟩ => ⟨S5000, .i32⟩
  | .hbm, ⟨94, _⟩ => ⟨S5000, .i32⟩
  | .hbm, ⟨95, _⟩ => ⟨S5000x1, .i32⟩
  | .hbm, ⟨96, _⟩ => ⟨S5000x128, .f32⟩
  | .hbm, ⟨97, _⟩ => ⟨S_, .i32⟩
  | .hbm, ⟨98, _⟩ => ⟨S5000, .i32⟩
  | .hbm, ⟨99, _⟩ => ⟨S5000, .i1⟩
  | .hbm, ⟨100, _⟩ => ⟨S_, .i32⟩
  | .hbm, ⟨101, _⟩ => ⟨S5000, .i32⟩
  | .hbm, ⟨102, _⟩ => ⟨S5000, .i32⟩
  | .hbm, ⟨103, _⟩ => ⟨S5000, .i32⟩
  | .hbm, ⟨104, _⟩ => ⟨S5000x1, .i32⟩
  | .hbm, ⟨105, _⟩ => ⟨S5000, .i32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S5000 : S_.BroadcastsInDim S5000 (![] : Fin 0 → Fin S5000.rank)
  bcast_S5000_S5000x1_0 : S5000.BroadcastsInDim S5000x1 (![0] : Fin 1 → Fin S5000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S5000x1_S5000x128_1_0_n_n_0_1_1128_wf : GatherDims.WF S100000x128 S5000x1 S5000x128 [1] [0] [] [0] [] 1 ![1, 128]
  gather_S100000_S5000x1_S5000_n_0_n_n_0_1_1_wf : GatherDims.WF S100000 S5000x1 S5000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S5000x1_S5000x128_1_0_n_n_0_1_1128 : GatherDims S100000x128 S5000x1 S5000x128 where
  offsetDims := [1]
  collapsedSliceDims := [0]
  operandBatchingDims := []
  startIndicesBatchingDims := []
  startIndexMap := [0]
  indexVectorDim := 1
  sliceSizes := ![1, 128]
  wf := gather_S100000x128_S5000x1_S5000x128_1_0_n_n_0_1_1128_wf
def gather_S100000_S5000x1_S5000_n_0_n_n_0_1_1 : GatherDims S100000 S5000x1 S5000 where
  offsetDims := []
  collapsedSliceDims := [0]
  operandBatchingDims := []
  startIndicesBatchingDims := []
  startIndexMap := [0]
  indexVectorDim := 1
  sliceSizes := ![1]
  wf := gather_S100000_S5000x1_S5000_n_0_n_n_0_1_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x1600000 : Shape := ⟨2, ![2, 1600000]⟩
abbrev S5000 : Shape := ⟨1, ![5000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000x1 : Shape := ⟨2, ![5000, 1]⟩
abbrev S5000x128 : Shape := ⟨2, ![5000, 128]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S1600000, .f32⟩
  | 2 => ⟨S128x128, .f32⟩
  | 3 => ⟨S128, .f32⟩
  | 4 => ⟨S128x128, .f32⟩
  | 5 => ⟨S128, .f32⟩
  | 6 => ⟨S2x1600000, .i32⟩
  | 7 => ⟨S5000, .i32⟩
  | 8 => ⟨S100000, .i32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S100000, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S100000, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .i32⟩
  | 5 => ⟨S5000, .i32⟩
  | 6 => ⟨S5000, .i1⟩
  | 7 => ⟨S_, .i32⟩
  | 8 => ⟨S5000, .i32⟩
  | 9 => ⟨S5000, .i32⟩
  | 10 => ⟨S5000, .i32⟩
  | 11 => ⟨S5000x1, .i32⟩
  | 12 => ⟨S5000x128, .f32⟩
  | 13 => ⟨S_, .i32⟩
  | 14 => ⟨S5000, .i32⟩
  | 15 => ⟨S5000, .i1⟩
  | 16 => ⟨S_, .i32⟩
  | 17 => ⟨S5000, .i32⟩
  | 18 => ⟨S5000, .i32⟩
  | 19 => ⟨S5000, .i32⟩
  | 20 => ⟨S5000x1, .i32⟩
  | 21 => ⟨S5000, .i32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_20 : Ref sig .tc := ⟨.hbm, 132, rfl⟩
abbrev main_v95 : Ref sig .tc := ⟨.hbm, 133, rfl⟩
abbrev main_v96 : Ref sig .tc := ⟨.hbm, 134, rfl⟩
abbrev main_c_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_22 : Ref sig .tc := ⟨.hbm, 141, rfl⟩
abbrev main_v102 : Ref sig .tc := ⟨.hbm, 142, rfl⟩
abbrev main_v103 : Ref sig .tc := ⟨.hbm, 143, rfl⟩
abbrev main_c_23 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S5000 : S_.BroadcastsInDim S5000 (![] : Fin 0 → Fin S5000.rank)
  bcast_S5000_S5000x1_0 : S5000.BroadcastsInDim S5000x1 (![0] : Fin 1 → Fin S5000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S5000x1_S5000x128_1_0_n_n_0_1_1128_wf : GatherDims.WF S100000x128 S5000x1 S5000x128 [1] [0] [] [0] [] 1 ![1, 128]
  gather_S100000_S5000x1_S5000_n_0_n_n_0_1_1_wf : GatherDims.WF S100000 S5000x1 S5000 [] [0] [] [0] [] 1 ![1]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S5000x1_S5000x128_1_0_n_n_0_1_1128 : GatherDims S100000x128 S5000x1 S5000x128 where
  offsetDims := [1]
  collapsedSliceDims := [0]
  operandBatchingDims := []
  startIndicesBatchingDims := []
  startIndexMap := [0]
  indexVectorDim := 1
  sliceSizes := ![1, 128]
  wf := gather_S100000x128_S5000x1_S5000x128_1_0_n_n_0_1_1128_wf
def gather_S100000_S5000x1_S5000_n_0_n_n_0_1_1 : GatherDims S100000 S5000x1 S5000 where
  offsetDims := []
  collapsedSliceDims := [0]
  operandBatchingDims := []
  startIndicesBatchingDims := []
  startIndexMap := [0]
  indexVectorDim := 1
  sliceSizes := ![1]
  wf := gather_S100000_S5000x1_S5000_n_0_n_n_0_1_1_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibGcnDense.lean ====
import proofs.«176218_j36206574306115_1_alg».proof.Proof.LibContract
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

/-!
# The three dense steps of a two-layer graph convolution, on any block of rows

Between the sparse aggregations a graph-convolution layer acts on every row of its feature matrix by itself:
a row times a square weight, `x ↦ x · W`; a row shifted by a bias, clipped below at zero and then times a weight,
`a ↦ max (a + b) 0 · W`; a row shifted by a bias, `a ↦ a + b`. Entry `(p, q)` of each result depends on row `p` of
the operand alone, so the step on a block of rows is the block of the step on the whole matrix, whatever the number
of rows `M`. This file states the three steps for any `M` (a tile's 5000 rows and the matrix's 100000 are instances),
reads a kernel's spelling of each (a contraction into the zero splat, a `[1, 128]` bias row broadcast down the rows)
and the host's spelling (`dot_general`, a bias vector broadcast in two steps) at an entry, and says that a step's
entry depends on the operand's row only.
-/

noncomputable section

namespace Cert.Gcn

open Idealize.ShloMosaic Idealize.ShloMosaic.ValueIdx

/-- The rank-2 shape `[a, b]`. -/
abbrev Sh (a b : Nat) : Shape := ⟨2, ![a, b]⟩
/-- The rank-1 shape `[a]`. -/
abbrev Sh1 (a : Nat) : Shape := ⟨1, ![a]⟩

/-! ## The steps -/

/-- Rows times a weight: entry `(p, q)` is `∑ k, x[p, k] · w[k, q]`. -/
def rowsTimes (M : Nat) (x : (Sh M 128).Idx → EReal) (w : (Sh 128 128).Idx → EReal) : (Sh M 128).Idx → EReal :=
  fun i => ∑ k : Fin 128, x (ix2 (i 0) k) * w (ix2 k (i 1))

/-- Rows shifted by a bias row, clipped below at zero, times a weight: entry `(p, q)` is
    `∑ k, max (a[p, k] + b[0, k]) 0 · w[k, q]`. -/
def clipTimes (M : Nat) (a : (Sh M 128).Idx → EReal) (b : (Sh 1 128).Idx → EReal) (w : (Sh 128 128).Idx → EReal) :
    (Sh M 128).Idx → EReal :=
  fun i => ∑ k : Fin 128, max (a (ix2 (i 0) k) + b (ix2 (0 : Fin 1) k)) 0 * w (ix2 k (i 1))

/-- Rows shifted by a bias row: entry `(p, q)` is `a[p, q] + b[0, q]`. -/
def shift (M : Nat) (a : (Sh M 128).Idx → EReal) (b : (Sh 1 128).Idx → EReal) : (Sh M 128).Idx → EReal :=
  fun i => a (ix2 (i 0) (i 1)) + b (ix2 (0 : Fin 1) (i 1))

theorem rowsTimes_apply (M : Nat) (x : (Sh M 128).Idx → EReal) (w : (Sh 128 128).Idx → EReal) (p : Fin M) (q : Fin 128) :
    rowsTimes M x w (ix2 p q) = ∑ k : Fin 128, x (ix2 p k) * w (ix2 k q) := rfl

theorem clipTimes_apply (M : Nat) (a : (Sh M 128).Idx → EReal) (b : (Sh 1 128).Idx → EReal) (w : (Sh 128 128).Idx → EReal)
    (p : Fin M) (q : Fin 128) :
    clipTimes M a b w (ix2 p q) = ∑ k : Fin 128, max (a (ix2 p k) + b (ix2 (0 : Fin 1) k)) 0 * w (ix2 k q) := rfl

theorem shift_apply (M : Nat) (a : (Sh M 128).Idx → EReal) (b : (Sh 1 128).Idx → EReal) (p : Fin M) (q : Fin 128) :
    shift M a b (ix2 p q) = a (ix2 p q) + b (ix2 (0 : Fin 1) q) := rfl

/-! ## A step on a block of rows is the block of the step -/

/-- If row `p` of `x'` is row `r` of `x`, entry `(p, q)` of `x' · w` is entry `(r, q)` of `x · w`. -/
theorem rowsTimes_row {M M' : Nat} (x : (Sh M 128).Idx → EReal) (x' : (Sh M' 128).Idx → EReal) (w : (Sh 128 128).Idx → EReal)
    (r : Fin M) (p : Fin M') (q : Fin 128) (h : ∀ k : Fin 128, x' (ix2 p k) = x (ix2 r k)) :
    rowsTimes M' x' w (ix2 p q) = rowsTimes M x w (ix2 r q) := by
  rw [rowsTimes_apply, rowsTimes_apply]
  exact Finset.sum_congr rfl fun k _ => by rw [h k]

theorem clipTimes_row {M M' : Nat} (a : (Sh M 128).Idx → EReal) (a' : (Sh M' 128).Idx → EReal) (b : (Sh 1 128).Idx → EReal)
    (w : (Sh 128 128).Idx → EReal) (r : Fin M) (p : Fin M') (q : Fin 128) (h : ∀ k : Fin 128, a' (ix2 p k) = a (ix2 r k)) :
    clipTimes M' a' b w (ix2 p q) = clipTimes M a b w (ix2 r q) := by
  rw [clipTimes_apply, clipTimes_apply]
  exact Finset.sum_congr rfl fun k _ => by rw [h k]

theorem shift_row {M M' : Nat} (a : (Sh M 128).Idx → EReal) (a' : (Sh M' 128).Idx → EReal) (b : (Sh 1 128).Idx → EReal)
    (r : Fin M) (p : Fin M') (q : Fin 128) (h : a' (ix2 p q) = a (ix2 r q)) :
    shift M' a' b (ix2 p q) = shift M a b (ix2 r q) := by
  rw [shift_apply, shift_apply, h]

/-! ## A kernel's spelling, read at an entry -/

/-- A contraction of rows narrowed to bf16 with a weight narrowed to bf16, accumulated into the zero splat: on the
    extended reals a narrowing is the identity, and the contraction is `rowsTimes`. -/
theorem kernel_rowsTimes (M : Nat) (x : FVec Ideal (Sh M 128) .f32) (w : FVec Ideal (Sh 128 128) .f32) :
    matmul (DotDims.plain M 128 128) none (truncf .bf16 x (by decide)) (truncf .bf16 w (by decide))
      (constant (F := Ideal) (Sh M 128) .f32 0x00000000#32) = rowsTimes M x w := by
  funext j
  obtain ⟨p, q, rfl⟩ : ∃ (p : Fin M) (q : Fin 128), j = ix2 p q := ⟨j 0, j 1, eq_ix2 j⟩
  rw [Cert.LibDense.matmul_plain_zero_apply, rowsTimes_apply]
  rfl

/-- The bias row broadcast down the rows and added, the clip against the zero splat, then the contraction. -/
theorem kernel_clipTimes (M : Nat) (hb : (Sh 1 128).Broadcasts (Sh M 128)) (a : FVec Ideal (Sh M 128) .f32)
    (b : FVec Ideal (Sh 1 128) .f32) (w : FVec Ideal (Sh 128 128) .f32) :
    matmul (DotDims.plain M 128 128) none
      (truncf .bf16 (maximumf (addf a (broadcastTo (Sh M 128) b hb)) (broadcast (Sh M 128) (Scalar.ofBits (F := Ideal) .f32 0x00000000#32)))
        (by decide))
      (truncf .bf16 w (by decide)) (constant (F := Ideal) (Sh M 128) .f32 0x00000000#32) = clipTimes M a b w := by
  funext j
  obtain ⟨p, q, rfl⟩ : ∃ (p : Fin M) (q : Fin 128), j = ix2 p q := ⟨j 0, j 1, eq_ix2 j⟩
  rw [Cert.LibDense.matmul_plain_zero_apply, clipTimes_apply]
  refine Finset.sum_congr rfl fun k _ => ?_
  show max (a (ix2 p k) + broadcastTo (Sh M 128) b hb (ix2 p k)) (Ideal.ofBits .f32 0x00000000#32) * w (ix2 k q) = _
  rw [broadcastTo_1b_ab_apply, Ideal.ofBits_zero_f32]

/-- The bias row broadcast down the rows and added. -/
theorem kernel_shift (M : Nat) (hb : (Sh 1 128).Broadcasts (Sh M 128)) (a : FVec Ideal (Sh M 128) .f32)
    (b : FVec Ideal (Sh 1 128) .f32) : addf a (broadcastTo (Sh M 128) b hb) = shift M a b := by
  funext j
  obtain ⟨p, q, rfl⟩ : ∃ (p : Fin M) (q : Fin 128), j = ix2 p q := ⟨j 0, j 1, eq_ix2 j⟩
  rw [addf_apply, broadcastTo_1b_ab_apply, shift_apply]

/-! ## The host's spelling, read at an entry -/

/-- A bias vector `[128]` laid as a row `[1, 128]` and then broadcast down `M` rows reads, at `(p, q)`, what the same
    vector CAST to a row holds at `(0, q)`: both are the vector's entry `q`. -/
theorem host_biasRows_apply (M : Nat) (h1 : (Sh1 128).BroadcastsInDim (Sh 1 128) ![1])
    (h2 : (Sh 1 128).BroadcastsInDim (Sh M 128) ![0, 1]) (hc : (Sh1 128).ShapeCasts (Sh 1 128))
    (b : (Sh1 128).Idx → EReal) (p : Fin M) (q : Fin 128) :
    broadcastInDim (Sh M 128) ![0, 1] h2 (broadcastInDim (Sh 1 128) ![1] h1 b) (ix2 p q)
      = shapeCast (Sh 1 128) b hc (ix2 (0 : Fin 1) q) := by
  rw [shapeCast_a_1a_apply]
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => show (0 : Nat) = if (1 : Nat) = 1 then 0 else p.val; rw [if_pos rfl]
    | ⟨1, _⟩ => show q.val = if (128 : Nat) = 1 then 0 else q.val; rw [if_neg (by decide)]
  · match a with
    | ⟨0, _⟩ => show q.val = if (128 : Nat) = 1 then 0 else q.val; rw [if_neg (by decide)]

/-- The host's `dot_general` of the whole matrix with the weight is `rowsTimes`. -/
theorem host_rowsTimes (M : Nat) (x : FVec Ideal (Sh M 128) .f32) (w : FVec Ideal (Sh 128 128) .f32) :
    Host.dotGeneral (DotDims.plain M 128 128) none x w = rowsTimes M x w := by
  funext j
  obtain ⟨p, q, rfl⟩ : ∃ (p : Fin M) (q : Fin 128), j = ix2 p q := ⟨j 0, j 1, eq_ix2 j⟩
  rw [Cert.LibDense.dotGeneral_plain_apply, rowsTimes_apply]

/-- The host's bias add, `relu` as a maximum with the zero splat, and `dot_general`: `clipTimes` with the bias vector
    cast to a row. -/
theorem host_clipTimes (M : Nat) (h1 : (Sh1 128).BroadcastsInDim (Sh 1 128) ![1])
    (h2 : (Sh 1 128).BroadcastsInDim (Sh M 128) ![0, 1]) (h0 : (⟨0, ![]⟩ : Shape).BroadcastsInDim (Sh M 128) ![])
    (hc : (Sh1 128).ShapeCasts (Sh 1 128))
    (a : FVec Ideal (Sh M 128) .f32) (b : FVec Ideal (Sh1 128) .f32) (w : FVec Ideal (Sh 128 128) .f32) :
    Host.dotGeneral (DotDims.plain M 128 128) none
      (maximumf (addf a (broadcastInDim (Sh M 128) ![0, 1] h2 (broadcastInDim (Sh 1 128) ![1] h1 b)))
        (broadcastInDim (Sh M 128) ![] h0 (constant (F := Ideal) ⟨0, ![]⟩ .f32 0x00000000#32))) w
      = clipTimes M a (shapeCast (Sh 1 128) b hc) w := by
  funext j
  obtain ⟨p, q, rfl⟩ : ∃ (p : Fin M) (q : Fin 128), j = ix2 p q := ⟨j 0, j 1, eq_ix2 j⟩
  rw [Cert.LibDense.dotGeneral_plain_apply, clipTimes_apply]
  refine Finset.sum_congr rfl fun k _ => ?_
  show max (a (ix2 p k) + broadcastInDim (Sh M 128) ![0, 1] h2 (broadcastInDim (Sh 1 128) ![1] h1 b) (ix2 p k))
      (broadcastInDim (Sh M 128) ![] h0 (constant (F := Ideal) ⟨0, ![]⟩ .f32 0x00000000#32) (ix2 p k)) * w (ix2 k q) = _
  rw [host_biasRows_apply M h1 h2 hc, broadcastInDim_scalar_apply, constant_apply, Ideal.ofBits_zero_f32]

/-- The host's bias add: `shift` with the bias vector cast to a row. -/
theorem host_shift (M : Nat) (h1 : (Sh1 128).BroadcastsInDim (Sh 1 128) ![1])
    (h2 : (Sh 1 128).BroadcastsInDim (Sh M 128) ![0, 1]) (hc : (Sh1 128).ShapeCasts (Sh 1 128))
    (a : FVec Ideal (Sh M 128) .f32) (b : FVec Ideal (Sh1 128) .f32) :
    addf a (broadcastInDim (Sh M 128) ![0, 1] h2 (broadcastInDim (Sh 1 128) ![1] h1 b))
      = shift M a (shapeCast (Sh 1 128) b hc) := by
  funext j
  obtain ⟨p, q, rfl⟩ : ∃ (p : Fin M) (q : Fin 128), j = ix2 p q := ⟨j 0, j 1, eq_ix2 j⟩
  rw [addf_apply, host_biasRows_apply M h1 h2 hc, shift_apply]

end Cert.Gcn

end
-- ==== Proof.Tile0.lean ====
import proofs.«176218_j36206574306115_1_alg».proof.Proof.Gen.KernelIdeal.Frame
import proofs.«176218_j36206574306115_1_alg».proof.Proof.LibGcnDense
import Idealize.ShloMosaic.Lib.Pipeline.Value
import Idealize.ShloMosaic.Lib.ValueIdx

set_option maxRecDepth 16384

noncomputable section

namespace Cert.KernelIdeal.Tile0

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the buffer contents the region is entered from: any
variable (V : (c : Dev nD) → (b : Ref sig .tc) → Buf (Elt Ideal) ((c : Thread nD τ).loc b))

theorem hz : (![0, 0] : Fin 2 → Nat) = fun _ => 0 := funext fun a => by fin_cases a <;> rfl

/-! # Region 0: a tile of 5000 rows of `x` times the first weight

The tile's result block at a point is 5000 rows of `x · W` — a row of the product depends on the same row of `x` alone —,
the 20 blocks tile the 100000 rows, so the region leaves the whole product in its output array. -/

theorem dot_plain : dot_S5000x128_S128x128_S5000x128_1_0_0_1_n_n = DotDims.plain 5000 128 128 := rfl

/-- The body's one stored value is the tile's rows times the weight. -/
theorem pay (x0 : Vec Ideal S5000x128 .f32) (x1 : Vec Ideal S128x128 .f32) : k0_pay1 x0 x1 = rowsTimes 5000 x0 x1 := by
  unfold k0_pay1
  rw [dot_plain]
  exact kernel_rowsTimes 5000 x0 x1

/-- The printed index maps over the grid: the row block moves with the point, the weight's block stays. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- A block of rows of the product from a block of rows of the operand, over plain variables. -/
theorem block_entry (X : (Sh 100000 128).Idx → EReal) (w w' : (Sh 128 128).Idx → EReal) (x' : (Sh 5000 128).Idx → EReal)
    (y : (Sh 5000 128).Idx) (r : (Sh 100000 128).Idx) (hw : w' = w) (hq : (r 1).val = (y 1).val)
    (hx : ∀ kk : Fin 128, x' (ix2 (y 0) kk) = X (ix2 (r 0) kk)) :
    rowsTimes 5000 x' w' y = rowsTimes 100000 X w r := by
  subst hw
  obtain ⟨p, q, rfl⟩ : ∃ (p : Fin 5000) (q : Fin 128), y = ix2 p q := ⟨y 0, y 1, eq_ix2 y⟩
  obtain ⟨r0, r1, rfl⟩ : ∃ (r0 : Fin 100000) (r1 : Fin 128), r = ix2 r0 r1 := ⟨r 0, r 1, eq_ix2 r⟩
  obtain rfl : r1 = q := Fin.ext hq
  exact rowsTimes_row X x' w' r0 p r1 hx

/-- WHAT POINT `t` WRITES BACK is block `t` of `x · W` of the arrays as the region finds them. -/
theorem flushed_eq (c : Dev nD) (t : Fin cfg0.N) :
    (dat0 V c).flushed 2 t = ((cfg0.win 2).blk t).view.read (Elt Ideal) (rowsTimes 100000 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay]
  obtain ⟨e0, e1, e2, e3, e4⟩ := idx_facts t
  funext j
  show rowsTimes 5000 (iblk0 V c 0 t) (iblk0 V c 1 t) j
    = rowsTimes 100000 (V c main_arg0) (V c main_arg2) (((cfg0.win 2).blk t).view.emb j)
  refine block_entry (V c main_arg0) (V c main_arg2) (iblk0 V c 1 t) (iblk0 V c 0 t) j _ ?_ ?_ ?_
  · funext y
    show V c main_arg2 (((cfg0.win 1).blk t).view.emb y) = V c main_arg2 y
    congr 1; funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (1 : Fin 2) * 128 + 1 * (j 1).val = (j 1).val; omega
  · intro kk
    show V c main_arg0 (((cfg0.win 0).blk t).view.emb (ix2 (j 0) kk)) = V c main_arg0 (ix2 ((((cfg0.win 2).blk t).view.emb j) 0) kk)
    congr 1; funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * kk.val = kk.val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` lies in the block of the point whose block index is `r / 5000`; every one of the 20 block indices is some
    point's. -/
theorem idx_onto : ∀ q0 : Fin 20, ∃ t : Fin cfg0.N, win0_2.index t = ![q0.val, 0] :=
  (by decide +kernel : ∀ q0 : Fin 20, ∃ t : Fin grid0.N, win0_2.index t = ![q0.val, 0])

theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY the region leaves: `x · W` of the arrays it was entered with. -/
theorem arr (c : Dev nD) : (dat0 V c).arrAt 2 cfg0.N = rowsTimes 100000 (V c main_arg0) (V c main_arg2) :=
  (dat0 V c).arrAt_eq_of_cover 2 _ (fun t _ => flushed_eq V c t) cover

end Cert.KernelIdeal.Tile0

end
-- ==== Proof.Tile1.lean ====
import proofs.«176218_j36206574306115_1_alg».proof.Proof.Gen.KernelIdeal.Frame
import proofs.«176218_j36206574306115_1_alg».proof.Proof.LibGcnDense
import Idealize.ShloMosaic.Lib.Pipeline.Value
import Idealize.ShloMosaic.Lib.ValueIdx

set_option maxRecDepth 16384

noncomputable section

namespace Cert.KernelIdeal.Tile1

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the buffer contents the region is entered from: any
variable (V : (c : Dev nD) → (b : Ref sig .tc) → Buf (Elt Ideal) ((c : Thread nD τ).loc b))

theorem hz : (![0, 0] : Fin 2 → Nat) = fun _ => 0 := funext fun a => by fin_cases a <;> rfl

/-! # Region 1: a tile of 5000 aggregated rows, shifted by the bias, clipped at zero, times the second weight

Again a row of the result depends on the same row of the aggregate alone; the bias row and the weight are read whole
at every point. -/

theorem dot_plain : dot_S5000x128_S128x128_S5000x128_1_0_0_1_n_n = DotDims.plain 5000 128 128 := rfl

/-- The body's one stored value. -/
theorem pay (x0 : Vec Ideal S5000x128 .f32) (x1 : Vec Ideal S1x128 .f32) (x2 : Vec Ideal S128x128 .f32) :
    k1_pay1 x0 x1 x2 = clipTimes 5000 x0 x1 x2 := by
  unfold k1_pay1
  rw [dot_plain, shapeCast_self, shapeCast_self]
  exact kernel_clipTimes 5000 _ x0 x1 x2

theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem block_entry (X : (Sh 100000 128).Idx → EReal) (b b' : (Sh 1 128).Idx → EReal) (w w' : (Sh 128 128).Idx → EReal)
    (x' : (Sh 5000 128).Idx → EReal) (y : (Sh 5000 128).Idx) (r : (Sh 100000 128).Idx) (hb : b' = b) (hw : w' = w)
    (hq : (r 1).val = (y 1).val) (hx : ∀ kk : Fin 128, x' (ix2 (y 0) kk) = X (ix2 (r 0) kk)) :
    clipTimes 5000 x' b' w' y = clipTimes 100000 X b w r := by
  subst hb; subst hw
  obtain ⟨p, q, rfl⟩ : ∃ (p : Fin 5000) (q : Fin 128), y = ix2 p q := ⟨y 0, y 1, eq_ix2 y⟩
  obtain ⟨r0, r1, rfl⟩ : ∃ (r0 : Fin 100000) (r1 : Fin 128), r = ix2 r0 r1 := ⟨r 0, r 1, eq_ix2 r⟩
  obtain rfl : r1 = q := Fin.ext hq
  exact clipTimes_row X x' b' w' r0 p r1 hx

theorem flushed_eq (c : Dev nD) (t : Fin cfg1.N) :
    (dat1 V c).flushed 3 t = ((cfg1.win 3).blk t).view.read (Elt Ideal)
      (clipTimes 100000 (V c main_v45) (V c main_v46) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  rw [pay]
  obtain ⟨e0, e1, e2, e3, e4, e5, e6⟩ := idx_facts t
  funext j
  show clipTimes 5000 (iblk1 V c 0 t) (iblk1 V c 1 t) (iblk1 V c 2 t) j
    = clipTimes 100000 (V c main_v45) (V c main_v46) (V c main_arg4) (((cfg1.win 3).blk t).view.emb j)
  refine block_entry (V c main_v45) (V c main_v46) (iblk1 V c 1 t) (V c main_arg4) (iblk1 V c 2 t) (iblk1 V c 0 t) j _ ?_ ?_ ?_ ?_
  · funext y
    show V c main_v46 (((cfg1.win 1).blk t).view.emb y) = V c main_v46 y
    congr 1; funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  · funext y
    show V c main_arg4 (((cfg1.win 2).blk t).view.emb y) = V c main_arg4 y
    congr 1; funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · show win1_3.index t (1 : Fin 2) * 128 + 1 * (j 1).val = (j 1).val; omega
  · intro kk
    show V c main_v45 (((cfg1.win 0).blk t).view.emb (ix2 (j 0) kk)) = V c main_v45 (ix2 ((((cfg1.win 3).blk t).view.emb j) 0) kk)
    congr 1; funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * kk.val = kk.val; omega

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Row `r` lies in the block of the point whose block index is `r / 5000`; every one of the 20 block indices is some
    point's. -/
theorem idx_onto : ∀ q0 : Fin 20, ∃ t : Fin cfg1.N, win1_3.index t = ![q0.val, 0] :=
  (by decide +kernel : ∀ q0 : Fin 20, ∃ t : Fin grid1.N, win1_3.index t = ![q0.val, 0])

theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

theorem arr (c : Dev nD) : (dat1 V c).arrAt 3 cfg1.N = clipTimes 100000 (V c main_v45) (V c main_v46) (V c main_arg4) :=
  (dat1 V c).arrAt_eq_of_cover 3 _ (fun t _ => flushed_eq V c t) cover

end Cert.KernelIdeal.Tile1

end
-- ==== Proof.Tile2.lean ====
import proofs.«176218_j36206574306115_1_alg».proof.Proof.Gen.KernelIdeal.Frame
import proofs.«176218_j36206574306115_1_alg».proof.Proof.LibGcnDense
import Idealize.ShloMosaic.Lib.Pipeline.Value
import Idealize.ShloMosaic.Lib.ValueIdx

set_option maxRecDepth 16384

noncomputable section

namespace Cert.KernelIdeal.Tile2

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the buffer contents the region is entered from: any
variable (V : (c : Dev nD) → (b : Ref sig .tc) → Buf (Elt Ideal) ((c : Thread nD τ).loc b))

theorem hz : (![0, 0] : Fin 2 → Nat) = fun _ => 0 := funext fun a => by fin_cases a <;> rfl

/-! # Region 2: a tile of 5000 aggregated rows shifted by the second bias -/

theorem pay (x0 : Vec Ideal S5000x128 .f32) (x1 : Vec Ideal S1x128 .f32) : k2_pay1 x0 x1 = shift 5000 x0 x1 := by
  unfold k2_pay1
  rw [shapeCast_self, shapeCast_self]
  exact kernel_shift 5000 _ x0 x1

theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0 :=
  (by decide +kernel : ∀ t : Fin grid2.N, _)

theorem block_entry (X : (Sh 100000 128).Idx → EReal) (b b' : (Sh 1 128).Idx → EReal)
    (x' : (Sh 5000 128).Idx → EReal) (y : (Sh 5000 128).Idx) (r : (Sh 100000 128).Idx) (hb : b' = b)
    (hq : (r 1).val = (y 1).val) (hx : x' (ix2 (y 0) (y 1)) = X (ix2 (r 0) (y 1))) :
    shift 5000 x' b' y = shift 100000 X b r := by
  subst hb
  obtain ⟨p, q, rfl⟩ : ∃ (p : Fin 5000) (q : Fin 128), y = ix2 p q := ⟨y 0, y 1, eq_ix2 y⟩
  obtain ⟨r0, r1, rfl⟩ : ∃ (r0 : Fin 100000) (r1 : Fin 128), r = ix2 r0 r1 := ⟨r 0, r 1, eq_ix2 r⟩
  obtain rfl : r1 = q := Fin.ext hq
  exact shift_row X x' b' r0 p r1 hx

theorem flushed_eq (c : Dev nD) (t : Fin cfg2.N) :
    (dat2 V c).flushed 2 t = ((cfg2.win 2).blk t).view.read (Elt Ideal) (shift 100000 (V c main_v60) (V c main_v61)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  rw [pay]
  obtain ⟨e0, e1, e2, e3, e4⟩ := idx_facts t
  funext j
  show shift 5000 (iblk2 V c 0 t) (iblk2 V c 1 t) j
    = shift 100000 (V c main_v60) (V c main_v61) (((cfg2.win 2).blk t).view.emb j)
  refine block_entry (V c main_v60) (V c main_v61) (iblk2 V c 1 t) (iblk2 V c 0 t) j _ ?_ ?_ ?_
  · funext y
    show V c main_v61 (((cfg2.win 1).blk t).view.emb y) = V c main_v61 y
    congr 1; funext a; apply Fin.ext
    match a with
    | ⟨0, _⟩ => show win2_1.index t (0 : Fin 2) * 1 + 1 * (y 0).val = (y 0).val; omega
    | ⟨1, _⟩ => show win2_1.index t (1 : Fin 2) * 128 + 1 * (y 1).val = (y 1).val; omega
  · show win2_2.index t (1 : Fin 2) * 128 + 1 * (j 1).val = (j 1).val; omega
  · show V c main_v60 (((cfg2.win 0).blk t).view.emb (ix2 (j 0) (j 1))) = V c main_v60 (ix2 ((((cfg2.win 2).blk t).view.emb j) 0) (j 1))
    congr 1; funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = (j 1).val; omega

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v62).slice (win2_2.rect t)).set ↔ _
  rw [View.set_slice_whole, Rect.mem_set_unit]
  exact Iff.rfl

/-- Row `r` lies in the block of the point whose block index is `r / 5000`; every one of the 20 block indices is some
    point's. -/
theorem idx_onto : ∀ q0 : Fin 20, ∃ t : Fin cfg2.N, win2_2.index t = ![q0.val, 0] :=
  (by decide +kernel : ∀ q0 : Fin 20, ∃ t : Fin grid2.N, win2_2.index t = ![q0.val, 0])

theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem arr (c : Dev nD) : (dat2 V c).arrAt 2 cfg2.N = shift 100000 (V c main_v60) (V c main_v61) :=
  (dat2 V c).arrAt_eq_of_cover 2 _ (fun t _ => flushed_eq V c t) cover

end Cert.KernelIdeal.Tile2

end
-- ==== Proof.Chain.lean ====
import proofs.«176218_j36206574306115_1_alg».proof.Proof.Gen.KernelIdeal

/-!
# The sparse side of the graph convolution, as named functions

Both programs build the same edge list (the given edges followed by one self loop per node), the same symmetric
normalisation `deg^{-1/2}[s] · w · deg^{-1/2}[d]` of the edge weights, and aggregate a feature matrix `h` over it by the
same gather, scaling and scatter-add; both pick the masked rows at the end. This file names those chains of host
operations once, so that a value proof can carry each as ONE function applied to whatever goes in and never opens it.
-/

noncomputable section

namespace Cert.KernelIdeal.Chain

open Idealize.ShloMosaic Cert.KernelIdeal
open Cert.KernelIdeal.Facts₀ Cert.KernelIdeal.Facts

variable {F : FTy → Type} [FloatOps F]

/-- The edges' source nodes followed by every node (the self loops). -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destination nodes followed by every node. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The edge weights followed by a one per self loop. -/
def wts (ew : (⟨S1600000, .f32⟩ : BufTy).Contents (Elt F)) : (⟨S1700000, .f32⟩ : BufTy).Contents (Elt F) :=
  concatenate S1700000 0 [⟨S1600000, ew⟩, ⟨S100000, (broadcastInDim S100000 ![] bcast_S_S100000 (constant S_ .f32 0x3F800000#32))⟩] concatenates_S1600000_S100000_S1700000_d0

/-- Node numbers as gather indices: a negative number counts from the end. -/
def wrap (x : (⟨S1700000, .i32⟩ : BufTy).Contents (Elt F)) : (⟨S1700000x1, .i32⟩ : BufTy).Contents (Elt F) :=
  broadcastInDim S1700000x1 ![0] bcast_S1700000_S1700000x1_0 (select (cmpi .slt x (broadcastInDim S1700000 ![] bcast_S_S1700000 (constantI S_ 32 0#32))) (addi x (broadcastInDim S1700000 ![] bcast_S_S1700000 (constantI S_ 32 100000#32))) x)

/-- The weighted in-degree of every node. -/
def deg (ew : (⟨S1600000, .f32⟩ : BufTy).Contents (Elt F)) (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst e)) (wts ew)

/-- `deg^{-1/2}` where the degree is positive, zero elsewhere. -/
def dis (ew : (⟨S1600000, .f32⟩ : BufTy).Contents (Elt F)) (e : (⟨S2x1600000, .i32⟩ : BufTy).Contents (Elt F)) : (⟨S100000, .f32⟩ : BufTy).Contents (Elt F) :=
  select (cmpf .ogt (deg ew e) (broadcastInDim S100000 ![] bcast_S_S100000 (constant S_ .f32 0x00000000#32))) (Host.rsqrt (deg ew e)) (broadcastInDim S100000 ![] bcast_S_S100000 (id (constant S_ .f32 0x00000000#32)))

/-- The normalised weight of every edge and self loop. -/
def nrm (ew : (⟨S1600000, .f32⟩ : BufTy).Contents (Elt F)) (e : (⟨S2x1600000, .i32⟩ : BufTy).Contents (Elt F)) : (⟨S1700000, .f32⟩ : BufTy).Contents (Elt F) :=
  mulf (mulf (Host.gather gather_S100000_S1700000x1_S1700000_n_0_n_n_0_1_1 (dis ew e) (wrap (src e))) (wts ew)) (Host.gather gather_S100000_S1700000x1_S1700000_n_0_n_n_0_1_1 (dis ew e) (wrap (dst e)))

/-- One aggregation: the rows of `h` at the sources, each scaled by its edge's weight `n`, added up at the destinations. -/
def agg (h : (⟨S100000x128, .f32⟩ : BufTy).Contents (Elt F)) (s d : (⟨S1700000, .i32⟩ : BufTy).Contents (Elt F)) (n : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (wrap s)) (broadcastInDim S1700000x128 ![0, 1] bcast_S1700000x1_S1700000x128_0_1 (broadcastInDim S1700000x1 ![0] bcast_S1700000_S1700000x1_0 n)))

/-- The masked nodes as gather indices. -/
def wrapMask (mk : (⟨S5000, .i32⟩ : BufTy).Contents (Elt F)) : (⟨S5000x1, .i32⟩ : BufTy).Contents (Elt F) :=
  broadcastInDim S5000x1 ![0] bcast_S5000_S5000x1_0 (select (cmpi .slt mk (broadcastInDim S5000 ![] bcast_S_S5000 (constantI S_ 32 0#32))) (addi mk (broadcastInDim S5000 ![] bcast_S_S5000 (constantI S_ 32 100000#32))) mk)

/-- The masked nodes' rows of a feature matrix. -/
def pick (h : (⟨S100000x128, .f32⟩ : BufTy).Contents (Elt F)) (mk : (⟨S5000, .i32⟩ : BufTy).Contents (Elt F)) : (⟨S5000x128, .f32⟩ : BufTy).Contents (Elt F) :=
  Host.gather gather_S100000x128_S5000x1_S5000x128_1_0_n_n_0_1_1128 h (wrapMask mk)

/-- The masked nodes' labels. -/
def pickLabel (y : (⟨S100000, .i32⟩ : BufTy).Contents (Elt F)) (mk : (⟨S5000, .i32⟩ : BufTy).Contents (Elt F)) : (⟨S5000, .i32⟩ : BufTy).Contents (Elt F) :=
  Host.gather gather_S100000_S5000x1_S5000_n_0_n_n_0_1_1 y (wrapMask mk)

end Cert.KernelIdeal.Chain

end
-- ==== Proof.KFold.lean ====
import proofs.«176218_j36206574306115_1_alg».proof.Proof.Gen.KernelIdeal.Frame
import proofs.«176218_j36206574306115_1_alg».proof.Proof.Tile0
import proofs.«176218_j36206574306115_1_alg».proof.Proof.Tile1
import proofs.«176218_j36206574306115_1_alg».proof.Proof.Tile2
import proofs.«176218_j36206574306115_1_alg».proof.Proof.Chain
import Idealize.ShloMosaic.Lib.StableHlo.Run

/-!
# What the kernel's program holds at each boundary of its run

The program is host operations, a region, host operations, a region, host operations, a region, host operations. Its
buffer contents at each boundary are a fold from the launch memory. This file reads that fold at the buffers the value
needs, boundary by boundary: a stretch of host operations computes its results from the contents before it and leaves
every other buffer alone; a region leaves its output array at its dense step of the arrays it was entered with and every
other buffer alone. At the last boundary the first result is the masked rows of

  `shift (agg (clipTimes (agg (x · W1)) b1 W2)) b2`

and the second the masked labels, each a function of the launch memory.
-/

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Gcn Cert.KernelIdeal.Chain

variable (m : (ℓ : Loc nD τ sig) → Buf (Elt Ideal) ℓ) (ρ : Dev nD → PrngReg)

/-! ## The values, as functions of the launch memory -/

/-- `x · W1`. -/
def xw (c : Dev nD) : (Sh 100000 128).Idx → EReal := rowsTimes 100000 (m ((c : Thread nD τ).loc main_arg0)) (m ((c : Thread nD τ).loc main_arg2))
/-- The first aggregation. -/
def agg1 (c : Dev nD) : (Sh 100000 128).Idx → EReal := agg (F := Ideal) (xw m c) (src (m ((c : Thread nD τ).loc main_arg6))) (dst (m ((c : Thread nD τ).loc main_arg6))) (nrm (m ((c : Thread nD τ).loc main_arg1)) (m ((c : Thread nD τ).loc main_arg6)))
/-- The first bias as a row. -/
def b1row (c : Dev nD) : (Sh 1 128).Idx → EReal := shapeCast S1x128 (m ((c : Thread nD τ).loc main_arg3)) Facts₀.shapeCasts_S128_S1x128
/-- `max (agg1 + b1) 0 · W2`. -/
def hw (c : Dev nD) : (Sh 100000 128).Idx → EReal := clipTimes 100000 (agg1 m c) (b1row m c) (m ((c : Thread nD τ).loc main_arg4))
/-- The second aggregation. -/
def agg2 (c : Dev nD) : (Sh 100000 128).Idx → EReal := agg (F := Ideal) (hw m c) (src (m ((c : Thread nD τ).loc main_arg6))) (dst (m ((c : Thread nD τ).loc main_arg6))) (nrm (m ((c : Thread nD τ).loc main_arg1)) (m ((c : Thread nD τ).loc main_arg6)))
/-- The second bias as a row. -/
def b2row (c : Dev nD) : (Sh 1 128).Idx → EReal := shapeCast S1x128 (m ((c : Thread nD τ).loc main_arg5)) Facts₀.shapeCasts_S128_S1x128
/-- `agg2 + b2`: the second layer's output. -/
def out (c : Dev nD) : (Sh 100000 128).Idx → EReal := shift 100000 (agg2 m c) (b2row m c)

variable (c : Dev nD)

/-! ## After the first stretch: the edge list, the weights, the degrees' test and inverse root -/

set_option maxHeartbeats 16000000 in
theorem at1_v5 : W1 m ρ c (Proc.devRef .tc main_v5) = (src (m ((c : Thread nD τ).loc main_arg6))) := by
  show StableHlo.after hostOps0 (W0 m ρ c) (Proc.devRef .tc main_v5) = _
  after_results
  unfold src
  rfl

set_option maxHeartbeats 16000000 in
theorem at1_v6 : W1 m ρ c (Proc.devRef .tc main_v6) = (dst (m ((c : Thread nD τ).loc main_arg6))) := by
  show StableHlo.after hostOps0 (W0 m ρ c) (Proc.devRef .tc main_v6) = _
  after_results
  unfold dst
  rfl

set_option maxHeartbeats 16000000 in
theorem at1_v8 : W1 m ρ c (Proc.devRef .tc main_v8) = (wts (m ((c : Thread nD τ).loc main_arg1))) := by
  show StableHlo.after hostOps0 (W0 m ρ c) (Proc.devRef .tc main_v8) = _
  after_results
  unfold wts
  rfl

set_option maxHeartbeats 16000000 in
theorem at1_v13 : W1 m ρ c (Proc.devRef .tc main_v13) = (cmpf .ogt (deg (m ((c : Thread nD τ).loc main_arg1)) (m ((c : Thread nD τ).loc main_arg6))) (broadcastInDim S100000 ![] Facts₀.bcast_S_S100000 (constant (F := Ideal) S_ .f32 0x00000000#32))) := by
  show StableHlo.after hostOps0 (W0 m ρ c) (Proc.devRef .tc main_v13) = _
  after_results
  unfold deg wts dst
  rfl

set_option maxHeartbeats 16000000 in
theorem at1_v14 : W1 m ρ c (Proc.devRef .tc main_v14) = (Host.rsqrt (deg (m ((c : Thread nD τ).loc main_arg1)) (m ((c : Thread nD τ).loc main_arg6)))) := by
  show StableHlo.after hostOps0 (W0 m ρ c) (Proc.devRef .tc main_v14) = _
  after_results
  unfold deg wts dst
  rfl

theorem at1_cst_2 : W1 m ρ c (Proc.devRef .tc main_cst_2) = (constant (F := Ideal) S_ .f32 0x00000000#32) := by
  show StableHlo.after hostOps0 (W0 m ρ c) (Proc.devRef .tc main_cst_2) = _
  after_results

/-! ## The typed references of the selection's operations: moving a value to a literal reference's type is the identity -/

theorem toBuf_v15 (v : (⟨S100000, .f32⟩ : BufTy).Contents (Elt Ideal)) :
    (StableHlo.TRef.of (sig := sig) (T := ⟨S100000, .f32⟩) main_v15).toBuf v = v := eq_of_heq (cast_heq _ _)

theorem ofBuf_v13 (v : (⟨S100000, .i1⟩ : BufTy).Contents (Elt Ideal)) :
    (StableHlo.TRef.of (sig := sig) (T := ⟨S100000, .i1⟩) main_v13).ofBuf v = v := eq_of_heq (cast_heq _ _)

theorem ofBuf_v14 (v : (⟨S100000, .f32⟩ : BufTy).Contents (Elt Ideal)) :
    (StableHlo.TRef.of (sig := sig) (T := ⟨S100000, .f32⟩) main_v14).ofBuf v = v := eq_of_heq (cast_heq _ _)

theorem toBuf_call0_v1 (v : (⟨S100000, .f32⟩ : BufTy).Contents (Elt Ideal)) :
    (StableHlo.TRef.of (sig := sig) (T := ⟨S100000, .f32⟩) main_call0_v1).toBuf v = v := eq_of_heq (cast_heq _ _)

theorem ofBuf_call0_v1 (v : (⟨S100000, .f32⟩ : BufTy).Contents (Elt Ideal)) :
    (StableHlo.TRef.of (sig := sig) (T := ⟨S100000, .f32⟩) main_call0_v1).ofBuf v = v := eq_of_heq (cast_heq _ _)

theorem toBuf_call0_v0 (v : (⟨S_, .f32⟩ : BufTy).Contents (Elt Ideal)) :
    (StableHlo.TRef.of (sig := sig) (T := ⟨S_, .f32⟩) main_call0_v0).toBuf v = v := eq_of_heq (cast_heq _ _)

theorem ofBuf_call0_v0 (v : (⟨S_, .f32⟩ : BufTy).Contents (Elt Ideal)) :
    (StableHlo.TRef.of (sig := sig) (T := ⟨S_, .f32⟩) main_call0_v0).ofBuf v = v := eq_of_heq (cast_heq _ _)

theorem ofBuf_cst_2 (v : (⟨S_, .f32⟩ : BufTy).Contents (Elt Ideal)) :
    (StableHlo.TRef.of (sig := sig) (T := ⟨S_, .f32⟩) main_cst_2).ofBuf v = v := eq_of_heq (cast_heq _ _)

/-! ## After the selection of the inverse roots -/

set_option maxHeartbeats 16000000 in
theorem at2_v15 : W2 m ρ c (Proc.devRef .tc main_v15) = (dis (m ((c : Thread nD τ).loc main_arg1)) (m ((c : Thread nD τ).loc main_arg6))) := by
  show StableHlo.after hostOps0_1 (W1 m ρ c) (Proc.devRef .tc main_v15) = _
  have h_v13 := at1_v13 m ρ c
  have h_v14 := at1_v14 m ρ c
  have h_cst_2 := at1_cst_2 m ρ c
  generalize W1 m ρ c = V at h_v13 h_v14 h_cst_2 ⊢
  after_results
  rw [h_v13, h_v14, h_cst_2]
  rw [toBuf_v15, ofBuf_v13, ofBuf_v14, ofBuf_call0_v1, toBuf_call0_v1, ofBuf_call0_v0, toBuf_call0_v0, ofBuf_cst_2]
  rfl

theorem at2_v5 : W2 m ρ c (Proc.devRef .tc main_v5) = (src (m ((c : Thread nD τ).loc main_arg6))) := by
  show StableHlo.after hostOps0_1 (W1 m ρ c) (Proc.devRef .tc main_v5) = _
  have h := at1_v5 m ρ c
  generalize W1 m ρ c = V at h ⊢
  after_results
  exact h

theorem at2_v6 : W2 m ρ c (Proc.devRef .tc main_v6) = (dst (m ((c : Thread nD τ).loc main_arg6))) := by
  show StableHlo.after hostOps0_1 (W1 m ρ c) (Proc.devRef .tc main_v6) = _
  have h := at1_v6 m ρ c
  generalize W1 m ρ c = V at h ⊢
  after_results
  exact h

theorem at2_v8 : W2 m ρ c (Proc.devRef .tc main_v8) = (wts (m ((c : Thread nD τ).loc main_arg1))) := by
  show StableHlo.after hostOps0_1 (W1 m ρ c) (Proc.devRef .tc main_v8) = _
  have h := at1_v8 m ρ c
  generalize W1 m ρ c = V at h ⊢
  after_results
  exact h

/-! ## At region 0's entry -/

theorem at3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results

theorem at3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results

theorem at3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results

theorem at3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results

theorem at3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results

theorem at3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results

theorem at3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results

set_option maxHeartbeats 16000000 in
theorem at3_v5 : W3 m ρ c (Proc.devRef .tc main_v5) = (src (m ((c : Thread nD τ).loc main_arg6))) := by
  show StableHlo.after hostOps0_2 (StableHlo.after hostOps0_1 (StableHlo.after hostOps0 (W0 m ρ c))) (Proc.devRef .tc main_v5) = _
  after_results
  unfold src
  rfl

set_option maxHeartbeats 16000000 in
theorem at3_v6 : W3 m ρ c (Proc.devRef .tc main_v6) = (dst (m ((c : Thread nD τ).loc main_arg6))) := by
  show StableHlo.after hostOps0_2 (StableHlo.after hostOps0_1 (StableHlo.after hostOps0 (W0 m ρ c))) (Proc.devRef .tc main_v6) = _
  after_results
  unfold dst
  rfl

set_option maxHeartbeats 16000000 in
theorem at3_v31 : W3 m ρ c (Proc.devRef .tc main_v31) = (nrm (m ((c : Thread nD τ).loc main_arg1)) (m ((c : Thread nD τ).loc main_arg6))) := by
  show StableHlo.after hostOps0_2 (W2 m ρ c) (Proc.devRef .tc main_v31) = _
  have h_v15 := at2_v15 m ρ c
  have h_v5 := at2_v5 m ρ c
  have h_v6 := at2_v6 m ρ c
  have h_v8 := at2_v8 m ρ c
  generalize W2 m ρ c = V at h_v15 h_v5 h_v6 h_v8 ⊢
  after_results
  rw [h_v15, h_v5, h_v6, h_v8]
  rfl

/-! ## At region 0's exit -/

theorem at4_v32 : W4 m ρ c (Proc.devRef .tc main_v32) = (xw m c) := by
  refine (W4_arr m ρ c 2).trans ((Tile0.arr (V3 m ρ) c).trans ?_)
  show rowsTimes 100000 (W3 m ρ c (Proc.devRef .tc main_arg0)) (W3 m ρ c (Proc.devRef .tc main_arg2)) = _
  rw [at3_arg0 m ρ c, at3_arg2 m ρ c]
  rfl

theorem at4_v5 : W4 m ρ c (Proc.devRef .tc main_v5) = (src (m ((c : Thread nD τ).loc main_arg6))) :=
  (W4_of_ne m ρ c main_v5 (by decide)).trans (at3_v5 m ρ c)

theorem at4_v6 : W4 m ρ c (Proc.devRef .tc main_v6) = (dst (m ((c : Thread nD τ).loc main_arg6))) :=
  (W4_of_ne m ρ c main_v6 (by decide)).trans (at3_v6 m ρ c)

theorem at4_v31 : W4 m ρ c (Proc.devRef .tc main_v31) = (nrm (m ((c : Thread nD τ).loc main_arg1)) (m ((c : Thread nD τ).loc main_arg6))) :=
  (W4_of_ne m ρ c main_v31 (by decide)).trans (at3_v31 m ρ c)

theorem at4_arg3 : W4 m ρ c (Proc.devRef .tc main_arg3) = (m ((c : Thread nD τ).loc main_arg3)) :=
  (W4_of_ne m ρ c main_arg3 (by decide)).trans (at3_arg3 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg7 : W4 m ρ c (Proc.devRef .tc main_arg7) = (m ((c : Thread nD τ).loc main_arg7)) :=
  (W4_of_ne m ρ c main_arg7 (by decide)).trans (at3_arg7 m ρ c)

theorem at4_arg8 : W4 m ρ c (Proc.devRef .tc main_arg8) = (m ((c : Thread nD τ).loc main_arg8)) :=
  (W4_of_ne m ρ c main_arg8 (by decide)).trans (at3_arg8 m ρ c)

/-! ## At region 1's entry -/

set_option maxHeartbeats 16000000 in
theorem at5_v45 : W5 m ρ c (Proc.devRef .tc main_v45) = (agg1 m c) := by
  show StableHlo.after hostOps1 (W4 m ρ c) (Proc.devRef .tc main_v45) = _
  after_results
  rw [at4_v32 m ρ c, at4_v5 m ρ c, at4_v6 m ρ c, at4_v31 m ρ c]
  rfl

set_option maxHeartbeats 16000000 in
theorem at5_v46 : W5 m ρ c (Proc.devRef .tc main_v46) = (b1row m c) := by
  show StableHlo.after hostOps1 (W4 m ρ c) (Proc.devRef .tc main_v46) = _
  after_results
  rw [at4_arg3 m ρ c]
  rfl

theorem at5_arg4 : W5 m ρ c (Proc.devRef .tc main_arg4) = (m ((c : Thread nD τ).loc main_arg4)) := by
  show StableHlo.after hostOps1 (W4 m ρ c) (Proc.devRef .tc main_arg4) = _
  after_results
  exact at4_arg4 m ρ c

theorem at5_v5 : W5 m ρ c (Proc.devRef .tc main_v5) = (src (m ((c : Thread nD τ).loc main_arg6))) := by
  show StableHlo.after hostOps1 (W4 m ρ c) (Proc.devRef .tc main_v5) = _
  after_results
  exact at4_v5 m ρ c

theorem at5_v6 : W5 m ρ c (Proc.devRef .tc main_v6) = (dst (m ((c : Thread nD τ).loc main_arg6))) := by
  show StableHlo.after hostOps1 (W4 m ρ c) (Proc.devRef .tc main_v6) = _
  after_results
  exact at4_v6 m ρ c

theorem at5_v31 : W5 m ρ c (Proc.devRef .tc main_v31) = (nrm (m ((c : Thread nD τ).loc main_arg1)) (m ((c : Thread nD τ).loc main_arg6))) := by
  show StableHlo.after hostOps1 (W4 m ρ c) (Proc.devRef .tc main_v31) = _
  after_results
  exact at4_v31 m ρ c

theorem at5_arg5 : W5 m ρ c (Proc.devRef .tc main_arg5) = (m ((c : Thread nD τ).loc main_arg5)) := by
  show StableHlo.after hostOps1 (W4 m ρ c) (Proc.devRef .tc main_arg5) = _
  after_results
  exact at4_arg5 m ρ c

theorem at5_arg7 : W5 m ρ c (Proc.devRef .tc main_arg7) = (m ((c : Thread nD τ).loc main_arg7)) := by
  show StableHlo.after hostOps1 (W4 m ρ c) (Proc.devRef .tc main_arg7) = _
  after_results
  exact at4_arg7 m ρ c

theorem at5_arg8 : W5 m ρ c (Proc.devRef .tc main_arg8) = (m ((c : Thread nD τ).loc main_arg8)) := by
  show StableHlo.after hostOps1 (W4 m ρ c) (Proc.devRef .tc main_arg8) = _
  after_results
  exact at4_arg8 m ρ c

/-! ## At region 1's exit -/

theorem at6_v47 : W6 m ρ c (Proc.devRef .tc main_v47) = (hw m c) := by
  refine (W6_arr m ρ c 3).trans ((Tile1.arr (V5 m ρ) c).trans ?_)
  show clipTimes 100000 (W5 m ρ c (Proc.devRef .tc main_v45)) (W5 m ρ c (Proc.devRef .tc main_v46)) (W5 m ρ c (Proc.devRef .tc main_arg4)) = _
  rw [at5_v45 m ρ c, at5_v46 m ρ c, at5_arg4 m ρ c]
  rfl

theorem at6_v5 : W6 m ρ c (Proc.devRef .tc main_v5) = (src (m ((c : Thread nD τ).loc main_arg6))) :=
  (W6_of_ne m ρ c main_v5 (by decide)).trans (at5_v5 m ρ c)

theorem at6_v6 : W6 m ρ c (Proc.devRef .tc main_v6) = (dst (m ((c : Thread nD τ).loc main_arg6))) :=
  (W6_of_ne m ρ c main_v6 (by decide)).trans (at5_v6 m ρ c)

theorem at6_v31 : W6 m ρ c (Proc.devRef .tc main_v31) = (nrm (m ((c : Thread nD τ).loc main_arg1)) (m ((c : Thread nD τ).loc main_arg6))) :=
  (W6_of_ne m ρ c main_v31 (by decide)).trans (at5_v31 m ρ c)

theorem at6_arg5 : W6 m ρ c (Proc.devRef .tc main_arg5) = (m ((c : Thread nD τ).loc main_arg5)) :=
  (W6_of_ne m ρ c main_arg5 (by decide)).trans (at5_arg5 m ρ c)

theorem at6_arg7 : W6 m ρ c (Proc.devRef .tc main_arg7) = (m ((c : Thread nD τ).loc main_arg7)) :=
  (W6_of_ne m ρ c main_arg7 (by decide)).trans (at5_arg7 m ρ c)

theorem at6_arg8 : W6 m ρ c (Proc.devRef .tc main_arg8) = (m ((c : Thread nD τ).loc main_arg8)) :=
  (W6_of_ne m ρ c main_arg8 (by decide)).trans (at5_arg8 m ρ c)

/-! ## At region 2's entry -/

set_option maxHeartbeats 16000000 in
theorem at7_v60 : W7 m ρ c (Proc.devRef .tc main_v60) = (agg2 m c) := by
  show StableHlo.after hostOps2 (W6 m ρ c) (Proc.devRef .tc main_v60) = _
  after_results
  rw [at6_v47 m ρ c, at6_v5 m ρ c, at6_v6 m ρ c, at6_v31 m ρ c]
  rfl

set_option maxHeartbeats 16000000 in
theorem at7_v61 : W7 m ρ c (Proc.devRef .tc main_v61) = (b2row m c) := by
  show StableHlo.after hostOps2 (W6 m ρ c) (Proc.devRef .tc main_v61) = _
  after_results
  rw [at6_arg5 m ρ c]
  rfl

theorem at7_arg7 : W7 m ρ c (Proc.devRef .tc main_arg7) = (m ((c : Thread nD τ).loc main_arg7)) := by
  show StableHlo.after hostOps2 (W6 m ρ c) (Proc.devRef .tc main_arg7) = _
  after_results
  exact at6_arg7 m ρ c

theorem at7_arg8 : W7 m ρ c (Proc.devRef .tc main_arg8) = (m ((c : Thread nD τ).loc main_arg8)) := by
  show StableHlo.after hostOps2 (W6 m ρ c) (Proc.devRef .tc main_arg8) = _
  after_results
  exact at6_arg8 m ρ c

/-! ## At region 2's exit -/

theorem at8_v62 : W8 m ρ c (Proc.devRef .tc main_v62) = (out m c) := by
  refine (W8_arr m ρ c 2).trans ((Tile2.arr (V7 m ρ) c).trans ?_)
  show shift 100000 (W7 m ρ c (Proc.devRef .tc main_v60)) (W7 m ρ c (Proc.devRef .tc main_v61)) = _
  rw [at7_v60 m ρ c, at7_v61 m ρ c]
  rfl

theorem at8_arg7 : W8 m ρ c (Proc.devRef .tc main_arg7) = (m ((c : Thread nD τ).loc main_arg7)) :=
  (W8_of_ne m ρ c main_arg7 (by decide)).trans (at7_arg7 m ρ c)

theorem at8_arg8 : W8 m ρ c (Proc.devRef .tc main_arg8) = (m ((c : Thread nD τ).loc main_arg8)) :=
  (W8_of_ne m ρ c main_arg8 (by decide)).trans (at7_arg8 m ρ c)

/-! ## At the return -/

set_option maxHeartbeats 16000000 in
/-- The first result: the masked rows of the second layer's output. -/
theorem at9_v69 : W9 m ρ c (Proc.devRef .tc main_v69) = (pick (out m c) (m ((c : Thread nD τ).loc main_arg7))) := by
  show StableHlo.after hostOps3 (W8 m ρ c) (Proc.devRef .tc main_v69) = _
  after_results
  rw [at8_v62 m ρ c, at8_arg7 m ρ c]
  rfl

set_option maxHeartbeats 16000000 in
/-- The second result: the masked labels. -/
theorem at9_v76 : W9 m ρ c (Proc.devRef .tc main_v76) = (pickLabel (m ((c : Thread nD τ).loc main_arg8)) (m ((c : Thread nD τ).loc main_arg7))) := by
  show StableHlo.after hostOps3 (W8 m ρ c) (Proc.devRef .tc main_v76) = _
  after_results
  rw [at8_arg8 m ρ c, at8_arg7 m ρ c]
  rfl

end Cert.KernelIdeal.Fold

end
-- ==== Proof.Total.lean ====
import proofs.«176218_j36206574306115_1_alg».proof.Proof.Chain
import proofs.«176218_j36206574306115_1_alg».proof.Proof.LibGcnDense

/-!
# The two layers as one function of the inputs

`layers` is the second layer's output for all 100000 nodes: `agg (max (agg (x · W1) + b1) 0 · W2) + b2`, the
aggregation over the normalised edge list of `Chain`, the dense steps of `LibGcnDense` on all rows at once.
-/

noncomputable section

namespace Cert.KernelIdeal.Total

open Idealize.ShloMosaic Cert.KernelIdeal Cert.Gcn Cert.KernelIdeal.Chain
open Cert.KernelIdeal.Facts₀ Cert.KernelIdeal.Facts

/-- The second layer's output on every node. -/
def layers (x : (Sh 100000 128).Idx → EReal) (ew : (⟨S1600000, .f32⟩ : BufTy).Contents (Elt Ideal))
    (w1 : (Sh 128 128).Idx → EReal) (b1 : (Sh1 128).Idx → EReal) (w2 : (Sh 128 128).Idx → EReal) (b2 : (Sh1 128).Idx → EReal)
    (e : (⟨S2x1600000, .i32⟩ : BufTy).Contents (Elt Ideal)) : (Sh 100000 128).Idx → EReal :=
  shift 100000
    (agg (F := Ideal)
      (clipTimes 100000
        (agg (F := Ideal) (rowsTimes 100000 x w1) (src e) (dst e) (nrm ew e))
        (shapeCast S1x128 b1 shapeCasts_S128_S1x128) w2)
      (src e) (dst e) (nrm ew e))
    (shapeCast S1x128 b2 shapeCasts_S128_S1x128)

end Cert.KernelIdeal.Total

end
-- ==== Proof.RefIs.lean ====
import proofs.«176218_j36206574306115_1_alg».proof.Proof.Gen.ReferenceIdeal.Run
import proofs.«176218_j36206574306115_1_alg».proof.Proof.Total

/-!
# The reference computes `layers` and picks the masked rows

The reference's run ends with its first result at one long term of its arguments: every operation of its two
`gcn_layer` calls composed. Read with the dense pieces as `LibGcnDense` states them — `dot_general` of all rows is
`rowsTimes`; bias add, `relu` and `dot_general` are `clipTimes`; the last bias add is `shift` — and the sparse
pieces as `Chain` names them, that term is the masked rows of `layers`. The second layer's normalisation is the first
layer's: the same operations of the same arguments.
-/

set_option maxRecDepth 16384

noncomputable section

namespace Cert.ReferenceIdeal.IsLayers

open Idealize.ShloMosaic Idealize.ShloMosaic.TcCoe Idealize.SL.Sem
open Cert.ReferenceIdeal Cert.ReferenceIdeal.Facts₀ Cert.ReferenceIdeal.Facts
open Cert.Gcn

/-! ## The two programs' records of one operation are one record -/

theorem scatter_S100000_S1700000x1_S1700000_n_0_0_1_eq : scatter_S100000_S1700000x1_S1700000_n_0_0_1 = Cert.KernelIdeal.scatter_S100000_S1700000x1_S1700000_n_0_0_1 := rfl
theorem gather_S100000_S1700000x1_S1700000_n_0_n_n_0_1_1_eq : gather_S100000_S1700000x1_S1700000_n_0_n_n_0_1_1 = Cert.KernelIdeal.gather_S100000_S1700000x1_S1700000_n_0_n_n_0_1_1 := rfl
theorem gather_S100000x128_S1700000x1_S1700000x128_1_0_n_n_0_1_1128_eq : gather_S100000x128_S1700000x1_S1700000x128_1_0_n_n_0_1_1128 = Cert.KernelIdeal.gather_S100000x128_S1700000x1_S1700000x128_1_0_n_n_0_1_1128 := rfl
theorem scatter_S100000x128_S1700000x1_S1700000x128_1_0_0_1_eq : scatter_S100000x128_S1700000x1_S1700000x128_1_0_0_1 = Cert.KernelIdeal.scatter_S100000x128_S1700000x1_S1700000x128_1_0_0_1 := rfl
theorem gather_S100000x128_S5000x1_S5000x128_1_0_n_n_0_1_1128_eq : gather_S100000x128_S5000x1_S5000x128_1_0_n_n_0_1_1128 = Cert.KernelIdeal.gather_S100000x128_S5000x1_S5000x128_1_0_n_n_0_1_1128 := rfl
theorem gather_S100000_S5000x1_S5000_n_0_n_n_0_1_1_eq : gather_S100000_S5000x1_S5000_n_0_n_n_0_1_1 = Cert.KernelIdeal.gather_S100000_S5000x1_S5000_n_0_n_n_0_1_1 := rfl
theorem dot_plain : dot_S100000x128_S128x128_S100000x128_1_0_0_1_n_n = DotDims.plain 100000 128 128 := rfl

/-- The reference's first result, its arguments' launch contents as variables (at any float instance, as the run states it). -/
def refTerm {F : FTy → Type} [FloatOps F] (x : (⟨S100000x128, .f32⟩ : BufTy).Contents (Elt F)) (ew : (⟨S1600000, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (e : (⟨S2x1600000, .i32⟩ : BufTy).Contents (Elt F)) (mk : (⟨S5000, .i32⟩ : BufTy).Contents (Elt F)) :
    (⟨S5000x128, .f32⟩ : BufTy).Contents (Elt F) :=
  Host.gather gather_S100000x128_S5000x1_S5000x128_1_0_n_n_0_1_1128 (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x128_S1700000x1_S1700000x128_1_0_n_n_0_1_1128 (Host.dotGeneral dot_S100000x128_S128x128_S100000x128_1_0_0_1_n_n none (maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x128_S1700000x1_S1700000x128_1_0_n_n_0_1_1128 (Host.dotGeneral dot_S100000x128_S128x128_S100000x128_1_0_0_1_n_n none x w1) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x128 ![0, 1] bcast_S1700000x1_S1700000x128_0_1 (broadcastInDim S1700000x1 ![0] bcast_S1700000_S1700000x1_0 (mulf (mulf (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (concatenate S1700000 0 [⟨S1600000, ew⟩, ⟨S100000, (broadcastInDim S100000 ![] bcast_S_S100000 (constant S_ .f32 0x3F800000#32))⟩] concatenates_S1600000_S100000_S1700000_d0)) (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))) (broadcastInDim S100000x128 ![0, 1] bcast_S1x128_S100000x128_0_1 (broadcastInDim S1x128 ![1] bcast_S128_S1x128_1 b1))) (broadcastInDim S100000x128 ![] bcast_S_S100000x128 (constant S_ .f32 0x00000000#32))) w2) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x128 ![0, 1] bcast_S1700000x1_S1700000x128_0_1 (broadcastInDim S1700000x1 ![0] bcast_S1700000_S1700000x1_0 (mulf (mulf (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (concatenate S1700000 0 [⟨S1600000, ew⟩, ⟨S100000, (broadcastInDim S100000 ![] bcast_S_S100000 (constant S_ .f32 0x3F800000#32))⟩] concatenates_S1600000_S100000_S1700000_d0)) (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))) (broadcastInDim S100000x128 ![0, 1] bcast_S1x128_S100000x128_0_1 (broadcastInDim S1x128 ![1] bcast_S128_S1x128_1 b2))) (broadcastInDim S5000x1 ![0] bcast_S5000_S5000x1_0 (select (cmpi .slt mk (broadcastInDim S5000 ![] bcast_S_S5000 (constantI S_ 32 0#32))) (addi mk (broadcastInDim S5000 ![] bcast_S_S5000 (constantI S_ 32 100000#32))) mk))

/-- The run's term is `refTerm` of the launch contents. -/
theorem res_eq (m : (ℓ : Loc nD τ sig) → Buf (Elt Ideal) ℓ) (c : Dev nD) :
    Cert.ReferenceIdeal.Value.res_main_v101 (F := Ideal) m c
      = refTerm (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := rfl

/-- The reference's first result is the masked rows of `layers`. -/
theorem refTerm_eq (x : (⟨S100000x128, .f32⟩ : BufTy).Contents (Elt Ideal)) (ew : (⟨S1600000, .f32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (e : (⟨S2x1600000, .i32⟩ : BufTy).Contents (Elt Ideal)) (mk : (⟨S5000, .i32⟩ : BufTy).Contents (Elt Ideal)) :
    refTerm (F := Ideal) x ew w1 b1 w2 b2 e mk
      = Cert.KernelIdeal.Chain.pick (F := Ideal) (Cert.KernelIdeal.Total.layers x ew w1 b1 w2 b2 e) mk := by
  unfold refTerm
  rw [dot_plain, host_rowsTimes 100000 x w1,
    host_clipTimes 100000 bcast_S128_S1x128_1 bcast_S1x128_S100000x128_0_1 bcast_S_S100000x128
      Cert.KernelIdeal.Facts₀.shapeCasts_S128_S1x128,
    host_shift 100000 bcast_S128_S1x128_1 bcast_S1x128_S100000x128_0_1 Cert.KernelIdeal.Facts₀.shapeCasts_S128_S1x128]
  simp only [scatter_S100000_S1700000x1_S1700000_n_0_0_1_eq, gather_S100000_S1700000x1_S1700000_n_0_n_n_0_1_1_eq, gather_S100000x128_S1700000x1_S1700000x128_1_0_n_n_0_1_1128_eq, scatter_S100000x128_S1700000x1_S1700000x128_1_0_0_1_eq, gather_S100000x128_S5000x1_S5000x128_1_0_n_n_0_1_1128_eq, gather_S100000_S5000x1_S5000_n_0_n_n_0_1_1_eq]
  rfl

/-- The reference's second result, the masked labels, in the kernel program's naming. -/
theorem label_eq (y : (⟨S100000, .i32⟩ : BufTy).Contents (Elt Ideal)) (mk : (⟨S5000, .i32⟩ : BufTy).Contents (Elt Ideal)) :
    Host.gather gather_S100000_S5000x1_S5000_n_0_n_n_0_1_1 y (broadcastInDim S5000x1 ![0] bcast_S5000_S5000x1_0 (select (cmpi .slt mk (broadcastInDim S5000 ![] bcast_S_S5000 (constantI S_ 32 0#32))) (addi mk (broadcastInDim S5000 ![] bcast_S_S5000 (constantI S_ 32 100000#32))) mk))
      = Cert.KernelIdeal.Chain.pickLabel (F := Ideal) y mk := by
  rw [gather_S100000_S5000x1_S5000_n_0_n_n_0_1_1_eq]
  rfl

end Cert.ReferenceIdeal.IsLayers

end
-- ==== Proof.lean ====
/-
  A two-layer graph convolution `agg (max (agg (x · W1) + b1) 0 · W2) + b2`, read at the masked nodes, with the masked
  labels beside it: `agg h` gathers the rows of `h` at the edges' sources, scales each by the symmetric normalisation
  `deg^{-1/2}[s] · w · deg^{-1/2}[d]` of its edge weight, and adds them up at the destinations, one self loop per node.

  The kernel's program and the reference build the edge list, the degrees, the normalised weights, the two aggregations
  and the final picks by the SAME host operations of the same arguments; they differ only in where the three dense steps
  run. The kernel runs each in a pallas_call over 20 tiles of 5000 nodes: `x · W1`; the bias, the clip at zero and
  `· W2`; the last bias. The reference runs each once on all 100000 nodes. A row of each dense step depends on the same
  row of its operand alone, so the 20 tiles' results are the rows of the step on the whole matrix (Tile0, Tile1, Tile2 over
  LibGcnDense). On the extended reals a narrowing to bf16 is the identity and a contraction into the zero splat is the plain
  sum over the 128 inner indices, in the kernel's and in the host's spelling alike (LibGcnDense over LibContract), so no law
  beyond the sums' own definition is used and the precondition is never opened.

  The kernel program's value is read off its frame run: the contents at each of its boundaries are a fold from the launch
  memory (KFold over KRun's run, which reads the two result buffers at the last boundary); the reference's is its
  generated run, whose long term is the same function `layers` of the arguments (RefIs over Total and Chain).
-/
import proofs.«176218_j36206574306115_1_alg».proof.Defs
import proofs.«176218_j36206574306115_1_alg».proof.Proof.Gen.Kernel
import proofs.«176218_j36206574306115_1_alg».proof.Proof.Gen.Kernel.Skeleton
import proofs.«176218_j36206574306115_1_alg».proof.Proof.Gen.Kernel.Launch
import proofs.«176218_j36206574306115_1_alg».proof.Proof.Gen.Kernel.Points
import proofs.«176218_j36206574306115_1_alg».proof.Proof.Gen.Kernel.Frame
import proofs.«176218_j36206574306115_1_alg».proof.Proof.Gen.KernelIdeal
import proofs.«176218_j36206574306115_1_alg».proof.Proof.Gen.KernelIdeal.Skeleton
import proofs.«176218_j36206574306115_1_alg».proof.Proof.Gen.KernelIdeal.Launch
import proofs.«176218_j36206574306115_1_alg».proof.Proof.Gen.KernelIdeal.Points
import proofs.«176218_j36206574306115_1_alg».proof.Proof.Gen.KernelIdeal.Frame
import proofs.«176218_j36206574306115_1_alg».proof.Proof.Gen.ReferenceIdeal
import proofs.«176218_j36206574306115_1_alg».proof.Proof.Gen.Pre_finite_inputs
import proofs.«176218_j36206574306115_1_alg».proof.Proof.Gen.ReferenceIdeal.Run
import proofs.«176218_j36206574306115_1_alg».proof.Proof.KRun
import proofs.«176218_j36206574306115_1_alg».proof.Proof.KFold
import proofs.«176218_j36206574306115_1_alg».proof.Proof.RefIs
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-! ## The value -/

/-- The second layer's output as the kernel program's boundaries give it is `layers` of the launch contents. -/
theorem out_layers (m : (ℓ : Loc Cert.KernelIdeal.nD Cert.KernelIdeal.τ Cert.KernelIdeal.sig) → Buf (Elt Ideal) ℓ)
    (c : Dev Cert.KernelIdeal.nD) :
    Cert.KernelIdeal.Fold.out m c
      = Cert.KernelIdeal.Total.layers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := rfl

/-- Both programs end with the masked rows of `layers` and the masked labels of arguments that agree. -/
theorem algebraic : Cert.algebraic_KernelIdeal_ReferenceIdeal := by
  intro m ρ m' ρ' _ hagree
  refine ⟨fun c => Cert.KernelIdeal.Chain.pick (F := Ideal) (Cert.KernelIdeal.Fold.out m c) (m ((c.tc : Thread Cert.KernelIdeal.nD Cert.KernelIdeal.τ).loc Cert.KernelIdeal.main_arg7)),
    fun c => Cert.KernelIdeal.Chain.pickLabel (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunVals.run_vals (F := Ideal) m ρ)
    obtain ⟨h0, h1, hargs⟩ := h c
    exact ⟨h0.trans (Cert.KernelIdeal.Fold.at9_v69 m ρ c), h1.trans (Cert.KernelIdeal.Fold.at9_v76 m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8⟩ := hagree c
    refine ⟨h0.trans ?_, h1.trans ?_, hargs⟩
    · rw [Cert.ReferenceIdeal.IsLayers.res_eq, Cert.ReferenceIdeal.IsLayers.refTerm_eq, e0, e1, e2, e3, e4, e5, e6, e7]
      exact congrArg (fun h => Cert.KernelIdeal.Chain.pick (F := Ideal) h _) (out_layers m c).symm
    · rw [e7, e8]
      exact Cert.ReferenceIdeal.IsLayers.label_eq _ _

end Cert.Proof

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
